-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x26 : Shape := ⟨2, ![16384, 26]⟩
abbrev S16384x13 : Shape := ⟨2, ![16384, 13]⟩
abbrev S13x1 : Shape := ⟨2, ![13, 1]⟩
abbrev S1 : Shape := ⟨1, ![1]⟩
abbrev S26x100000x1 : Shape := ⟨3, ![26, 100000, 1]⟩
abbrev S26x100000x16 : Shape := ⟨3, ![26, 100000, 16]⟩
abbrev S1x1 : Shape := ⟨2, ![1, 1]⟩
abbrev S_ : Shape := ⟨0, ![]⟩

class Facts : Prop where
  bcast_S_S16384x13 : S_.BroadcastsInDim S16384x13 (![] : Fin 0 → Fin S16384x13.rank)
  reducesTo_S16384x13_S_d0_1 : S16384x13.ReducesTo [0, 1] S_
  h_S_ : 0 < S_.numel
  bcast_S_S13x1 : S_.BroadcastsInDim S13x1 (![] : Fin 0 → Fin S13x1.rank)
  reducesTo_S13x1_S_d0_1 : S13x1.ReducesTo [0, 1] S_
  bcast_S_S1 : S_.BroadcastsInDim S1 (![] : Fin 0 → Fin S1.rank)
  reducesTo_S1_S_d0 : S1.ReducesTo [0] S_
  bcast_S_S26x100000x1 : S_.BroadcastsInDim S26x100000x1 (![] : Fin 0 → Fin S26x100000x1.rank)
  reducesTo_S26x100000x1_S_d0_1_2 : S26x100000x1.ReducesTo [0, 1, 2] S_
  bcast_S_S26x100000x16 : S_.BroadcastsInDim S26x100000x16 (![] : Fin 0 → Fin S26x100000x16.rank)
  reducesTo_S26x100000x16_S_d0_1_2 : S26x100000x16.ReducesTo [0, 1, 2] S_
  bcast_S_S1x1 : S_.BroadcastsInDim S1x1 (![] : Fin 0 → Fin S1x1.rank)
  reducesTo_S1x1_S_d0_1 : S1x1.ReducesTo [0, 1] S_

variable [Facts]

def fn_part2 {F : FTy → Type} [FloatOps F] (main_arg8 : FVec F S1x1 .f32) (main_arg9 : FVec F S1 .f32) (main_v33 : IVec S_ 1) : IVec S_ 1 :=
  let main_v34 : FVec F S1x1 .f32 := Host.absf main_arg8
  let main_cst_12 : FVec F S_ .f32 := constant S_ .f32 0x7F800000#32
  let main_v35 : FVec F S1x1 .f32 := broadcastInDim S1x1 ![] bcast_S_S1x1 main_cst_12
  let main_v36 : IVec S1x1 1 := cmpf .olt main_v34 main_v35
  let main_c_13 : IVec S_ 1 := constantI S_ 1 1#1
  let main_v37 : IVec S_ 1 := (fun x v => Host.reduce IntOp.andi x v reducesTo_S1x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S26x100000x16 .f32) (main_arg6 : FVec F S1x1 .f32) (main_arg7 : FVec F S1 .f32) (main_arg8 : FVec F S1x1 .f32) (main_arg9 : FVec F S1 .f32) (main_v13 : IVec S_ 1) (main_v16 : IVec S26x100000x1 1) : IVec S_ 1 :=
  let main_c_5 : IVec S_ 1 := constantI S_ 1 1#1
  let main_v17 : IVec S_ 1 := (fun x v => Host.reduce IntOp.andi x v reducesTo_S26x100000x1_S_d0_1_2 h_S_) main_v16 main_c_5
  let main_v18 : IVec S_ 1 := andi main_v13 main_v17
  let main_v19 : FVec F S26x100000x16 .f32 := Host.absf main_arg5
  let main_cst_6 : FVec F S_ .f32 := constant S_ .f32 0x7F800000#32
  let main_v20 : FVec F S26x100000x16 .f32 := broadcastInDim S26x100000x16 ![] bcast_S_S26x100000x16 main_cst_6
  let main_v21 : IVec S26x100000x16 1 := cmpf .olt main_v19 main_v20
  let main_c_7 : IVec S_ 1 := constantI S_ 1 1#1
  let main_v22 : IVec S_ 1 := (fun x v => Host.reduce IntOp.andi x v reducesTo_S26x100000x16_S_d0_1_2 h_S_) main_v21 main_c_7
  let main_v23 : IVec S_ 1 := andi main_v18 main_v22
  let main_v24 : FVec F S1x1 .f32 := Host.absf main_arg6
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_v33

def fn {F : FTy → Type} [FloatOps F] (main_arg0 : IVec S16384x26 32) (main_arg1 : FVec F S16384x13 .f32) (main_arg2 : FVec F S13x1 .f32) (main_arg3 : FVec F S1 .f32) (main_arg4 : FVec F S26x100000x1 .f32) (main_arg5 : FVec F S26x100000x16 .f32) (main_arg6 : FVec F S1x1 .f32) (main_arg7 : FVec F S1 .f32) (main_arg8 : FVec F S1x1 .f32) (main_arg9 : FVec F S1 .f32) : IVec S_ 1 :=
  let main_v0 : FVec F S16384x13 .f32 := Host.absf main_arg1
  let main_cst : FVec F S_ .f32 := constant S_ .f32 0x7F800000#32
  let main_v1 : FVec F S16384x13 .f32 := broadcastInDim S16384x13 ![] bcast_S_S16384x13 main_cst
  let main_v2 : IVec S16384x13 1 := cmpf .olt main_v0 main_v1
  let main_c : IVec S_ 1 := constantI S_ 1 1#1
  let main_v3 : IVec S_ 1 := (fun x v => Host.reduce IntOp.andi x v reducesTo_S16384x13_S_d0_1 h_S_) main_v2 main_c
  let main_v4 : FVec F S13x1 .f32 := Host.absf main_arg2
  let main_cst_0 : FVec F S_ .f32 := constant S_ .f32 0x7F800000#32
  let main_v5 : FVec F S13x1 .f32 := broadcastInDim S13x1 ![] bcast_S_S13x1 main_cst_0
  let main_v6 : IVec S13x1 1 := cmpf .olt main_v4 main_v5
  let main_c_1 : IVec S_ 1 := constantI S_ 1 1#1
  let main_v7 : IVec S_ 1 := (fun x v => Host.reduce IntOp.andi x v reducesTo_S13x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S26x100000x1 .f32 := Host.absf main_arg4
  let main_cst_4 : FVec F S_ .f32 := constant S_ .f32 0x7F800000#32
  let main_v15 : FVec F S26x100000x1 .f32 := broadcastInDim S26x100000x1 ![] bcast_S_S26x100000x1 main_cst_4
  let main_v16 : IVec S26x100000x1 1 := cmpf .olt main_v14 main_v15
  fn_part1 (F := F) main_arg5 main_arg6 main_arg7 main_arg8 main_arg9 main_v13 main_v16
-- ==== Kernel.lean ====
abbrev S16384x26 : Shape := ⟨2, ![16384, 26]⟩
abbrev S16384x13 : Shape := ⟨2, ![16384, 13]⟩
abbrev S13x1 : Shape := ⟨2, ![13, 1]⟩
abbrev S1 : Shape := ⟨1, ![1]⟩
abbrev S26x100000x1 : Shape := ⟨3, ![26, 100000, 1]⟩
abbrev S26x100000x16 : Shape := ⟨3, ![26, 100000, 16]⟩
abbrev S1x1 : Shape := ⟨2, ![1, 1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S16384x26x16 : Shape := ⟨3, ![16384, 26, 16]⟩
abbrev S16384x2 : Shape := ⟨2, ![16384, 2]⟩
abbrev S4096x26x16 : Shape := ⟨3, ![4096, 26, 16]⟩
abbrev S4096x26x1 : Shape := ⟨3, ![4096, 26, 1]⟩
abbrev S4096x13 : Shape := ⟨2, ![4096, 13]⟩
abbrev S4096x2 : Shape := ⟨2, ![4096, 2]⟩
abbrev S4096x1 : Shape := ⟨2, ![4096, 1]⟩
abbrev S4096x16 : Shape := ⟨2, ![4096, 16]⟩
abbrev S4096 : Shape := ⟨1, ![4096]⟩

abbrev nBuf : Space → Nat
  | .hbm => 51
  | .vmem => 14
  | .smem => 0
  | _ => 0

abbrev bufTy : (tb : Table) → Fin (tcTables nBuf tb) → BufTy
  | .hbm, ⟨0, _⟩ => ⟨S16384x26, .i32⟩
  | .hbm, ⟨1, _⟩ => ⟨S16384x13, .f32⟩
  | .hbm, ⟨2, _⟩ => ⟨S13x1, .f32⟩
  | .hbm, ⟨3, _⟩ => ⟨S1, .f32⟩
  | .hbm, ⟨4, _⟩ => ⟨S26x100000x1, .f32⟩
  | .hbm, ⟨5, _⟩ => ⟨S26x100000x16, .f32⟩
  | .hbm, ⟨6, _⟩ => ⟨S1x1, .f32⟩
  | .hbm, ⟨7, _⟩ => ⟨S1, .f32⟩
  | .hbm, ⟨8, _⟩ => ⟨S1x1, .f32⟩
  | .hbm, ⟨9, _⟩ => ⟨S1, .f32⟩
  | .hbm, ⟨10, _⟩ => ⟨S26, .i32⟩
  | .hbm, ⟨11, _⟩ => ⟨S1x26, .i32⟩
  | .hbm, ⟨12, _⟩ => ⟨S_, .i32⟩
  | .hbm, ⟨13, _⟩ => ⟨S1x26, .i32⟩
  | .hbm, ⟨14, _⟩ => ⟨S1x26, .i1⟩
  | .hbm, ⟨15, _⟩ => ⟨S_, .i32⟩
  | .hbm, ⟨16, _⟩ => ⟨S1x26, .i32⟩
  | .hbm, ⟨17, _⟩ => ⟨S1x26, .i32⟩
  | .hbm, ⟨18, _⟩ => ⟨S1x26, .i32⟩
  | .hbm, ⟨19, _⟩ => ⟨S_, .i32⟩
  | .hbm, ⟨20, _⟩ => ⟨S16384x26, .i32⟩
  | .hbm, ⟨21, _⟩ => ⟨S16384x26, .i1⟩
  | .hbm, ⟨22, _⟩ => ⟨S_, .i32⟩
  | .hbm, ⟨23, _⟩ => ⟨S16384x26, .i32⟩
  | .hbm, ⟨24, _⟩ => ⟨S16384x26, .i32⟩
  | .hbm, ⟨25, _⟩ => ⟨S16384x26, .i32⟩
  | .hbm, ⟨26, _⟩ => ⟨S16384x26, .i32⟩
  | .hbm, ⟨27, _⟩ => ⟨S16384x26x1, .i32⟩
  | .hbm, ⟨28, _⟩ => ⟨S16384x26x1, .i32⟩
  | .hbm, ⟨29, _⟩ => ⟨S16384x26x2, .i32⟩
  | .hbm, ⟨30, _⟩ => ⟨S16384x26x1, .f32⟩
  | .hbm, ⟨31, _⟩ => ⟨S_, .i32⟩
  | .hbm, ⟨32, _⟩ => ⟨S1x26, .i32⟩
  | .hbm, ⟨33, _⟩ => ⟨S1x26, .i1⟩
  | .hbm, ⟨34, _⟩ => ⟨S_, .i32⟩
  | .hbm, ⟨35, _⟩ => ⟨S1x26, .i32⟩
  | .hbm, ⟨36, _⟩ => ⟨S1x26, .i32⟩
  | .hbm, ⟨37, _⟩ => ⟨S1x26, .i32⟩
  | .hbm, ⟨38, _⟩ => ⟨S_, .i32⟩
  | .hbm, ⟨39, _⟩ => ⟨S16384x26, .i32⟩
  | .hbm, ⟨40, _⟩ => ⟨S16384x26, .i1⟩
  | .hbm, ⟨41, _⟩ => ⟨S_, .i32⟩
  | .hbm, ⟨42, _⟩ => ⟨S16384x26, .i32⟩
  | .hbm, ⟨43, _⟩ => ⟨S16384x26, .i32⟩
  | .hbm, ⟨44, _⟩ => ⟨S16384x26, .i32⟩
  | .hbm, ⟨45, _⟩ => ⟨S16384x26, .i32⟩
  | .hbm, ⟨46, _⟩ => ⟨S16384x26x1, .i32⟩
  | .hbm, ⟨47, _⟩ => ⟨S16384x26x1, .i32⟩
  | .hbm, ⟨48, _⟩ => ⟨S16384x26x2, .i32⟩
  | .hbm, ⟨49, _⟩ => ⟨S16384x26x16, .f32⟩
  | .hbm, ⟨50, _⟩ => ⟨S16384x2, .f32⟩
  | .local _ .vmem, ⟨0, _⟩ => ⟨S4096x26x16, .f32⟩
  | .local _ .vmem, ⟨1, _⟩ => ⟨S4096x26x16, .f32⟩
  | .local _ .vmem, ⟨2, _⟩ => ⟨S4096x26x1, .f32⟩
  | .local _ .vmem, ⟨3, _⟩ => ⟨S4096x26x1, .f32⟩
  | .local _ .vmem, ⟨4, _⟩ => ⟨S4096x13, .f32⟩
  | .local _ .vmem, ⟨5, _⟩ => ⟨S4096x13, .f32⟩
  | .local _ .vmem, ⟨6, _⟩ => ⟨S13x1, .f32⟩
  | .local _ .vmem, ⟨7, _⟩ => ⟨S1, .f32⟩
  | .local _ .vmem, ⟨8, _⟩ => ⟨S1x1, .f32⟩
  | .local _ .vmem, ⟨9, _⟩ => ⟨S1, .f32⟩
  | .local _ .vmem, ⟨10, _⟩ => ⟨S1x1, .f32⟩
  | .local _ .vmem, ⟨11, _⟩ => ⟨S1, .f32⟩
  | .local _ .vmem, ⟨12, _⟩ => ⟨S4096x2, .f32⟩
  | .local _ .vmem, ⟨13, _⟩ => ⟨S4096x2, .f32⟩
  | _, _ => ⟨S16384x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x26x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x26x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x13 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S13x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  inb_S13x1_S13x1_0_0 : ∀ a, (![0, 0] : Fin 2 → Nat) a + S13x1.size a ≤ S13x1.size a
  h_S13x1 : 0 < S13x1.numel
  inb_S1_S1_0 : ∀ a, (![0] : Fin 1 → Nat) a + S1.size a ≤ S1.size a
  h_S1 : 0 < S1.numel
  inb_S1x1_S1x1_0_0 : ∀ a, (![0, 0] : Fin 2 → Nat) a + S1x1.size a ≤ S1x1.size a
  h_S1x1 : 0 < S1x1.numel
  inb_S4096x13_S4096x13_0_0 : ∀ a, (![0, 0] : Fin 2 → Nat) a + S4096x13.size a ≤ S4096x13.size a
  h_S4096x13 : 0 < S4096x13.numel
  shapeCasts_S1_S1x1 : S1.ShapeCasts S1x1
  broadcasts_S1x1_S4096x1 : S1x1.Broadcasts S4096x1
  inb_S4096x26x1_S4096x26x1_0_0_0 : ∀ a, (![0, 0, 0] : Fin 3 → Nat) a + S4096x26x1.size a ≤ S4096x26x1.size a
  h_S4096x26x1 : 0 < S4096x26x1.numel
  shapeCasts_S4096x26x1_S4096x26x1 : S4096x26x1.ShapeCasts S4096x26x1
  reduces_S4096x26x1_S4096x1 : S4096x26x1.Reduces [1] S4096x1
  inb_S4096x26x16_S4096x26x16_0_0_0 : ∀ a, (![0, 0, 0] : Fin 3 → Nat) a + S4096x26x16.size a ≤ S4096x26x16.size a
  h_S4096x26x16 : 0 < S4096x26x16.numel
  shapeCasts_S4096x26x16_S4096x26x16 : S4096x26x16.ShapeCasts S4096x26x16
  reduces_S4096x26x16_S4096x16 : S4096x26x16.Reduces [1] S4096x16
  reduces_S4096x16_S4096 : S4096x16.Reduces [1] S4096
  shapeCasts_S4096_S4096x1 : S4096.ShapeCasts S4096x1
  concatenates_S4096x1_S4096x1_S4096x2_d1 : Shape.Concatenates [S4096x1, S4096x1] S4096x2 1
  inb_S4096x2_S4096x2_0_0 : ∀ a, (![0, 0] : Fin 2 → Nat) a + S4096x2.size a ≤ S4096x2.size a
  h_S4096x2 : 0 < S4096x2.numel
  gather_S26x100000x1_S16384x26x2_S16384x26x1_2_01_n_n_01_2_111_wf : GatherDims.WF S26x100000x1 S16384x26x2 S16384x26x1 [2] [0, 1] [] [0, 1] [] 2 ![1, 1, 1]
  gather_S26x100000x16_S16384x26x2_S16384x26x16_2_01_n_n_01_2_1116_wf : GatherDims.WF S26x100000x16 S16384x26x2 S16384x26x16 [2] [0, 1] [] [0, 1] [] 2 ![1, 1, 16]
  dot_S4096x13_S13x1_S4096x1_1_0_0_1_n_n_wf : DotDims.WF S4096x13 S13x1 S4096x1 [1] [0] [0] [1] [] []
  dot_S4096x1_S1x1_S4096x1_1_0_0_1_n_n_wf : DotDims.WF S4096x1 S1x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x26x16.size a ≤ S16384x26x16.size a
  hwx0_0 : ∀ i : grid0.Coords, EltTy.bits .f32 = 32 ∨ (Rect.block (s := S16384x26x16) S4096x26x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x26x1.size a ≤ S16384x26x1.size a
  hwx0_1 : ∀ i : grid0.Coords, EltTy.bits .f32 = 32 ∨ (Rect.block (s := S16384x26x1) S4096x26x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x13.size a ≤ S16384x13.size a
  hwx0_2 : ∀ i : grid0.Coords, EltTy.bits .f32 = 32 ∨ (Rect.block (s := S16384x13) S4096x13.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S13x1.size a ≤ S13x1.size a
  hwx0_3 : ∀ i : grid0.Coords, EltTy.bits .f32 = 32 ∨ (Rect.block (s := S13x1) S13x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x2.size a ≤ S16384x2.size a
  hwx0_9 : ∀ i : grid0.Coords, EltTy.bits .f32 = 32 ∨ (Rect.block (s := S16384x2) S4096x2.size (cc0_transform_9 i) (hinb0_9 i)).WholeWords (EltTy.packing .f32)

variable [Facts₀]

def gather_S26x100000x1_S16384x26x2_S16384x26x1_2_01_n_n_01_2_111 : GatherDims S26x100000x1 S16384x26x2 S16384x26x1 where
  offsetDims := [2]
  collapsedSliceDims := [0, 1]
  operandBatchingDims := []
  startIndicesBatchingDims := []
  startIndexMap := [0, 1]
  indexVectorDim := 2
  sliceSizes := ![1, 1, 1]
  wf := gather_S26x100000x1_S16384x26x2_S16384x26x1_2_01_n_n_01_2_111_wf
def gather_S26x100000x16_S16384x26x2_S16384x26x16_2_01_n_n_01_2_1116 : GatherDims S26x100000x16 S16384x26x2 S16384x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S16384x26x2_S16384x26x16_2_01_n_n_01_2_1116_wf
def dot_S4096x13_S13x1_S4096x1_1_0_0_1_n_n : DotDims S4096x13 S13x1 S4096x1 where
  lhsContracting := [1]
  rhsContracting := [0]
  lhsNonContracting := [0]
  rhsNonContracting := [1]
  lhsBatch := []
  rhsBatch := []
  wf := dot_S4096x13_S13x1_S4096x1_1_0_0_1_n_n_wf
def dot_S4096x1_S1x1_S4096x1_1_0_0_1_n_n : DotDims S4096x1 S1x1 S4096x1 where
  lhsContracting := [1]
  rhsContracting := [0]
  lhsNonContracting := [0]
  rhsNonContracting := [1]
  lhsBatch := []
  rhsBatch := []
  wf := dot_S4096x1_S1x1_S4096x1_1_0_0_1_n_n_wf

abbrev win0_0 : Pipeline.Window sig grid0 :=
  Pipeline.Window.ofSpec (Memref.whole main_v31) S4096x26x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S4096x26x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4096x13.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S13x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v32) S4096x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x26 : Shape := ⟨2, ![16384, 26]⟩
abbrev S16384x13 : Shape := ⟨2, ![16384, 13]⟩
abbrev S13x1 : Shape := ⟨2, ![13, 1]⟩
abbrev S1 : Shape := ⟨1, ![1]⟩
abbrev S26x100000x1 : Shape := ⟨3, ![26, 100000, 1]⟩
abbrev S26x100000x16 : Shape := ⟨3, ![26, 100000, 16]⟩
abbrev S1x1 : Shape := ⟨2, ![1, 1]⟩
abbrev S26 : Shape := ⟨1, ![26]⟩
abbrev S1x26 : Shape := ⟨2, ![1, 26]⟩
abbrev S16384x1 : Shape := ⟨2, ![16384, 1]⟩
abbrev S_ : Shape := ⟨0, ![]⟩
abbrev S16384x26x1 : Shape := ⟨3, ![16384, 26, 1]⟩
abbrev S16384x26x2 : Shape := ⟨3, ![16384, 26, 2]⟩
abbrev S16384x26x16 : Shape := ⟨3, ![16384, 26, 16]⟩
abbrev S16384x16 : Shape := ⟨2, ![16384, 16]⟩
abbrev S16384 : Shape := ⟨1, ![16384]⟩
abbrev S16384x2 : Shape := ⟨2, ![16384, 2]⟩

abbrev nBuf : Space → Nat
  | .hbm => 96
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S16384x13, .f32⟩
  | .hbm, ⟨2, _⟩ => ⟨S13x1, .f32⟩
  | .hbm, ⟨3, _⟩ => ⟨S1, .f32⟩
  | .hbm, ⟨4, _⟩ => ⟨S26x100000x1, .f32⟩
  | .hbm, ⟨5, _⟩ => ⟨S26x100000x16, .f32⟩
  | .hbm, ⟨6, _⟩ => ⟨S1x1, .f32⟩
  | .hbm, ⟨7, _⟩ => ⟨S1, .f32⟩
  | .hbm, ⟨8, _⟩ => ⟨S1x1, .f32⟩
  | .hbm, ⟨9, _⟩ => ⟨S1, .f32⟩
  | .hbm, ⟨10, _⟩ => ⟨S26, .i32⟩
  | .hbm, ⟨11, _⟩ => ⟨S1x26, .i32⟩
  | .hbm, ⟨12, _⟩ => ⟨S16384x1, .f32⟩
  | .hbm, ⟨13, _⟩ => ⟨S1x1, .f32⟩
  | .hbm, ⟨14, _⟩ => ⟨S16384x1, .f32⟩
  | .hbm, ⟨15, _⟩ => ⟨S16384x1, .f32⟩
  | .hbm, ⟨16, _⟩ => ⟨S_, .i32⟩
  | .hbm, ⟨17, _⟩ => ⟨S1x26, .i32⟩
  | .hbm, ⟨18, _⟩ => ⟨S1x26, .i1⟩
  | .hbm, ⟨19, _⟩ => ⟨S_, .i32⟩
  | .hbm, ⟨20, _⟩ => ⟨S1x26, .i32⟩
  | .hbm, ⟨21, _⟩ => ⟨S1x26, .i32⟩
  | .hbm, ⟨22, _⟩ => ⟨S1x26, .i32⟩
  | .hbm, ⟨23, _⟩ => ⟨S_, .i32⟩
  | .hbm, ⟨24, _⟩ => ⟨S16384x26, .i32⟩
  | .hbm, ⟨25, _⟩ => ⟨S16384x26, .i1⟩
  | .hbm, ⟨26, _⟩ => ⟨S_, .i32⟩
  | .hbm, ⟨27, _⟩ => ⟨S16384x26, .i32⟩
  | .hbm, ⟨28, _⟩ => ⟨S16384x26, .i32⟩
  | .hbm, ⟨29, _⟩ => ⟨S16384x26, .i32⟩
  | .hbm, ⟨30, _⟩ => ⟨S16384x26, .i32⟩
  | .hbm, ⟨31, _⟩ => ⟨S16384x26x1, .i32⟩
  | .hbm, ⟨32, _⟩ => ⟨S16384x26x1, .i32⟩
  | .hbm, ⟨33, _⟩ => ⟨S16384x26x2, .i32⟩
  | .hbm, ⟨34, _⟩ => ⟨S16384x26x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .i32⟩
  | .hbm, ⟨39, _⟩ => ⟨S1x26, .i32⟩
  | .hbm, ⟨40, _⟩ => ⟨S1x26, .i1⟩
  | .hbm, ⟨41, _⟩ => ⟨S_, .i32⟩
  | .hbm, ⟨42, _⟩ => ⟨S1x26, .i32⟩
  | .hbm, ⟨43, _⟩ => ⟨S1x26, .i32⟩
  | .hbm, ⟨44, _⟩ => ⟨S1x26, .i32⟩
  | .hbm, ⟨45, _⟩ => ⟨S_, .i32⟩
  | .hbm, ⟨46, _⟩ => ⟨S16384x26, .i32⟩
  | .hbm, ⟨47, _⟩ => ⟨S16384x26, .i1⟩
  | .hbm, ⟨48, _⟩ => ⟨S_, .i32⟩
  | .hbm, ⟨49, _⟩ => ⟨S16384x26, .i32⟩
  | .hbm, ⟨50, _⟩ => ⟨S16384x26, .i32⟩
  | .hbm, ⟨51, _⟩ => ⟨S16384x26, .i32⟩
  | .hbm, ⟨52, _⟩ => ⟨S16384x26, .i32⟩
  | .hbm, ⟨53, _⟩ => ⟨S16384x26x1, .i32⟩
  | .hbm, ⟨54, _⟩ => ⟨S16384x26x1, .i32⟩
  | .hbm, ⟨55, _⟩ => ⟨S16384x26x2, .i32⟩
  | .hbm, ⟨56, _⟩ => ⟨S16384x26x16, .f32⟩
  | .hbm, ⟨57, _⟩ => ⟨S_, .f32⟩
  | .hbm, ⟨58, _⟩ => ⟨S16384x16, .f32⟩
  | .hbm, ⟨59, _⟩ => ⟨S16384x16, .f32⟩
  | .hbm, ⟨60, _⟩ => ⟨S16384x26x16, .f32⟩
  | .hbm, ⟨61, _⟩ => ⟨S_, .f32⟩
  | .hbm, ⟨62, _⟩ => ⟨S16384x16, .f32⟩
  | .hbm, ⟨63, _⟩ => ⟨S16384x16, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1, .f32⟩
  | .hbm, ⟨71, _⟩ => ⟨S16384x1, .f32⟩
  | .hbm, ⟨72, _⟩ => ⟨S1x1, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x1, .f32⟩
  | .hbm, ⟨77, _⟩ => ⟨S_, .f32⟩
  | .hbm, ⟨78, _⟩ => ⟨S16384x1, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S16384x1, .f32⟩
  | .hbm, ⟨84, _⟩ => ⟨S1x1, .f32⟩
  | .hbm, ⟨85, _⟩ => ⟨S16384x1, .f32⟩
  | .hbm, ⟨86, _⟩ => ⟨S16384x1, .f32⟩
  | .hbm, ⟨87, _⟩ => ⟨S16384x1, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S16384x2, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩

abbrev nD : Nat := 1
abbrev τ : Topo := Topo.v7x

variable {F : FTy → Type} [FloatOps F]

class Facts₀ : Prop where
  bcast_S26_S1x26_1 : S26.BroadcastsInDim S1x26 (![1] : Fin 1 → Fin S1x26.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  reducesTo_S16384x26x1_S16384x1_d1 : S16384x26x1.ReducesTo [1] S16384x1
  h_S_ : 0 < S_.numel
  reducesTo_S16384x26x16_S16384x16_d1 : S16384x26x16.ReducesTo [1] S16384x16
  reducesTo_S16384x16_S16384_d1 : S16384x16.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  concatenates_S16384x1_S16384x1_S16384x2_d1 : Shape.Concatenates [S16384x1, S16384x1] S16384x2 1
  dot_S16384x13_S13x1_S16384x1_1_0_0_1_n_n_wf : DotDims.WF S16384x13 S13x1 S16384x1 [1] [0] [0] [1] [] []
  gather_S26x100000x1_S16384x26x2_S16384x26x1_2_01_n_n_01_2_111_wf : GatherDims.WF S26x100000x1 S16384x26x2 S16384x26x1 [2] [0, 1] [] [0, 1] [] 2 ![1, 1, 1]
  gather_S26x100000x16_S16384x26x2_S16384x26x16_2_01_n_n_01_2_1116_wf : GatherDims.WF S26x100000x16 S16384x26x2 S16384x26x16 [2] [0, 1] [] [0, 1] [] 2 ![1, 1, 16]
  dot_S16384x1_S1x1_S16384x1_1_0_0_1_n_n_wf : DotDims.WF S16384x1 S1x1 S16384x1 [1] [0] [0] [1] [] []

variable [Facts₀]

def dot_S16384x13_S13x1_S16384x1_1_0_0_1_n_n : DotDims S16384x13 S13x1 S16384x1 where
  lhsContracting := [1]
  rhsContracting := [0]
  lhsNonContracting := [0]
  rhsNonContracting := [1]
  lhsBatch := []
  rhsBatch := []
  wf := dot_S16384x13_S13x1_S16384x1_1_0_0_1_n_n_wf
def gather_S26x100000x1_S16384x26x2_S16384x26x1_2_01_n_n_01_2_111 : GatherDims S26x100000x1 S16384x26x2 S16384x26x1 where
  offsetDims := [2]
  collapsedSliceDims := [0, 1]
  operandBatchingDims := []
  startIndicesBatchingDims := []
  startIndexMap := [0, 1]
  indexVectorDim := 2
  sliceSizes := ![1, 1, 1]
  wf := gather_S26x100000x1_S16384x26x2_S16384x26x1_2_01_n_n_01_2_111_wf
def gather_S26x100000x16_S16384x26x2_S16384x26x16_2_01_n_n_01_2_1116 : GatherDims S26x100000x16 S16384x26x2 S16384x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S16384x26x2_S16384x26x16_2_01_n_n_01_2_1116_wf
def dot_S16384x1_S1x1_S16384x1_1_0_0_1_n_n : DotDims S16384x1 S1x1 S16384x1 where
  lhsContracting := [1]
  rhsContracting := [0]
  lhsNonContracting := [0]
  rhsNonContracting := [1]
  lhsBatch := []
  rhsBatch := []
  wf := dot_S16384x1_S1x1_S16384x1_1_0_0_1_n_n_wf

class Facts : Prop extends Facts₀ where

variable [Facts]
-- ==== Proof.FmRow.lean ====
/-
  The factorization-machine head of ONE batch row, over the extended reals.

  For a row with dense features d (13 of them), dense weights w and bias b, one-dimensional sparse
  embeddings l (26 features) and sixteen-dimensional embeddings e (26 features by 16 lanes):

    logit = (Σ_k d_k·w_k + b) + Σ_f l_f + ½ · Σ_q ( (Σ_f e_fq)² − Σ_f e_fq² )

  (the first-order term, and the second-order term by the sum-of-squares identity), and each of the two
  outputs is the logistic of  logit·W + B  for its own 1×1 weight W and bias B.  The one half is kept as the
  float word both programs carry, so it is never evaluated.  `G` lays the rows out as the [16384, 2] result.
-/
import Idealize.ShloMosaic.PureOps.Ideal.Laws
import Idealize.ShloMosaic.Lib.ValueIdx

noncomputable section

namespace Cert.FmRow

open Idealize.ShloMosaic Idealize.ShloMosaic.ValueIdx

/-- The float word of one half, read as an extended real. -/
abbrev half : EReal := Ideal.ofBits .f32 0x3F000000#32

/-- The logit of one row: first-order part plus half the summed second-order part. -/
def logit (d w : Fin 13 → EReal) (b : EReal) (l : Fin 26 → EReal) (e : Fin 26 → Fin 16 → EReal) : EReal :=
  (∑ k : Fin 13, d k * w k) + b + (∑ f : Fin 26, l f)
    + half * ∑ q : Fin 16, ((∑ f : Fin 26, e f q) * (∑ f : Fin 26, e f q) - ∑ f : Fin 26, e f q * e f q)

/-- One output head: the logistic of the logit scaled by a 1×1 weight plus a bias. -/
def head (z W B : EReal) : EReal := Ideal.logistic (z * W + B)

/-- Row `r`, column `j` of the result: column 0 is the first head, column 1 the second. -/
def entry (dense : (⟨2, ![16384, 13]⟩ : Shape).Idx → EReal) (ldw : (⟨2, ![13, 1]⟩ : Shape).Idx → EReal)
    (ldb : (⟨1, ![1]⟩ : Shape).Idx → EReal) (lin : (⟨3, ![16384, 26, 1]⟩ : Shape).Idx → EReal)
    (emb : (⟨3, ![16384, 26, 16]⟩ : Shape).Idx → EReal) (fw : (⟨2, ![1, 1]⟩ : Shape).Idx → EReal)
    (fb : (⟨1, ![1]⟩ : Shape).Idx → EReal) (lw : (⟨2, ![1, 1]⟩ : Shape).Idx → EReal) (lb : (⟨1, ![1]⟩ : Shape).Idx → EReal)
    (r : Fin 16384) (j : Fin 2) : EReal :=
  if j.val = 0 then
    head (logit (fun k => dense (ix2 r k)) (fun k => ldw (ix2 k (0 : Fin 1))) (ldb (ix1 (0 : Fin 1)))
      (fun f => lin (ix3 r f (0 : Fin 1))) (fun f q => emb (ix3 r f q))) (fw (ix2 (0 : Fin 1) (0 : Fin 1))) (fb (ix1 (0 : Fin 1)))
  else
    head (logit (fun k => dense (ix2 r k)) (fun k => ldw (ix2 k (0 : Fin 1))) (ldb (ix1 (0 : Fin 1)))
      (fun f => lin (ix3 r f (0 : Fin 1))) (fun f q => emb (ix3 r f q))) (lw (ix2 (0 : Fin 1) (0 : Fin 1))) (lb (ix1 (0 : Fin 1)))

/-- The whole [16384, 2] result as one function of the nine arrays the head reads. -/
def G (dense : (⟨2, ![16384, 13]⟩ : Shape).Idx → EReal) (ldw : (⟨2, ![13, 1]⟩ : Shape).Idx → EReal)
    (ldb : (⟨1, ![1]⟩ : Shape).Idx → EReal) (lin : (⟨3, ![16384, 26, 1]⟩ : Shape).Idx → EReal)
    (emb : (⟨3, ![16384, 26, 16]⟩ : Shape).Idx → EReal) (fw : (⟨2, ![1, 1]⟩ : Shape).Idx → EReal)
    (fb : (⟨1, ![1]⟩ : Shape).Idx → EReal) (lw : (⟨2, ![1, 1]⟩ : Shape).Idx → EReal) (lb : (⟨1, ![1]⟩ : Shape).Idx → EReal) :
    (⟨2, ![16384, 2]⟩ : Shape).Idx → EReal :=
  fun i => entry dense ldw ldb lin emb fw fb lw lb (i 0) (i 1)

end Cert.FmRow

end
-- ==== Proof.KernelRow.lean ====
/-
  The kernel body's arithmetic at one index of its [4096, 2] output block.

  The body computes, for the 4096 rows of a block at once: a [4096,13]·[13,1] matrix product plus a bias,
  the sum over the 26 one-dimensional sparse embeddings, and half the lane sum of
  (Σ_f e)² − Σ_f e² over the sixteen embedding lanes; their total is the row's logit.  Each of the two output
  columns is the logistic of a [4096,1]·[1,1] product of the logit column plus a bias.  Read at row `p`, every
  matrix product into the zero accumulator is a finite sum over its contraction index, every reduction over
  one axis the finite sum over that axis, and the casts and broadcasts only re-index: so column `j` of row `p`
  is `FmRow.head (FmRow.logit …)` of the row's slices of the input blocks.
-/
import proofs.«420257_j48043504173401_1_alg».proof.Proof.Gen.KernelIdeal.Value
import proofs.«420257_j48043504173401_1_alg».proof.Proof.FmRow
import Idealize.ShloMosaic.Lib.ValueIdx
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx Cert.FmRow

/-! ## The two matrix products: operand indices, axis by axis -/

theorem lhsD_0 (i : S4096x1.Idx) (q : dot_S4096x13_S13x1_S4096x1_1_0_0_1_n_n.contr.Idx) :
    (dot_S4096x13_S13x1_S4096x1_1_0_0_1_n_n.lhsIdx i q 0).val = (i 0).val := by
  unfold DotDims.lhsIdx
  rw [dif_neg (show ¬(0 : Fin S4096x13.rank) ∈ dot_S4096x13_S13x1_S4096x1_1_0_0_1_n_n.lhsBatch by decide), dif_pos (show (0 : Fin S4096x13.rank) ∈ dot_S4096x13_S13x1_S4096x1_1_0_0_1_n_n.lhsNonContracting by decide)]
  rfl
theorem lhsD_1 (i : S4096x1.Idx) (q : dot_S4096x13_S13x1_S4096x1_1_0_0_1_n_n.contr.Idx) :
    (dot_S4096x13_S13x1_S4096x1_1_0_0_1_n_n.lhsIdx i q 1).val = (q ⟨0, by decide⟩).val :=
  dot_S4096x13_S13x1_S4096x1_1_0_0_1_n_n.lhsIdx_val_of_single rfl i q
theorem rhsD_0 (i : S4096x1.Idx) (q : dot_S4096x13_S13x1_S4096x1_1_0_0_1_n_n.contr.Idx) :
    (dot_S4096x13_S13x1_S4096x1_1_0_0_1_n_n.rhsIdx i q 0).val = (q ⟨0, by decide⟩).val :=
  dot_S4096x13_S13x1_S4096x1_1_0_0_1_n_n.rhsIdx_val_of_single rfl i q
theorem rhsD_1 (i : S4096x1.Idx) (q : dot_S4096x13_S13x1_S4096x1_1_0_0_1_n_n.contr.Idx) :
    (dot_S4096x13_S13x1_S4096x1_1_0_0_1_n_n.rhsIdx i q 1).val = (i 1).val := by
  unfold DotDims.rhsIdx
  rw [dif_neg (show ¬(1 : Fin S13x1.rank) ∈ dot_S4096x13_S13x1_S4096x1_1_0_0_1_n_n.rhsBatch by decide), dif_pos (show (1 : Fin S13x1.rank) ∈ dot_S4096x13_S13x1_S4096x1_1_0_0_1_n_n.rhsNonContracting by decide)]
  rfl

theorem lhsH_0 (i : S4096x1.Idx) (q : dot_S4096x1_S1x1_S4096x1_1_0_0_1_n_n.contr.Idx) :
    (dot_S4096x1_S1x1_S4096x1_1_0_0_1_n_n.lhsIdx i q 0).val = (i 0).val := by
  unfold DotDims.lhsIdx
  rw [dif_neg (show ¬(0 : Fin S4096x1.rank) ∈ dot_S4096x1_S1x1_S4096x1_1_0_0_1_n_n.lhsBatch by decide), dif_pos (show (0 : Fin S4096x1.rank) ∈ dot_S4096x1_S1x1_S4096x1_1_0_0_1_n_n.lhsNonContracting by decide)]
  rfl
theorem lhsH_1 (i : S4096x1.Idx) (q : dot_S4096x1_S1x1_S4096x1_1_0_0_1_n_n.contr.Idx) :
    (dot_S4096x1_S1x1_S4096x1_1_0_0_1_n_n.lhsIdx i q 1).val = (q ⟨0, by decide⟩).val :=
  dot_S4096x1_S1x1_S4096x1_1_0_0_1_n_n.lhsIdx_val_of_single rfl i q
theorem rhsH_0 (i : S4096x1.Idx) (q : dot_S4096x1_S1x1_S4096x1_1_0_0_1_n_n.contr.Idx) :
    (dot_S4096x1_S1x1_S4096x1_1_0_0_1_n_n.rhsIdx i q 0).val = (q ⟨0, by decide⟩).val :=
  dot_S4096x1_S1x1_S4096x1_1_0_0_1_n_n.rhsIdx_val_of_single rfl i q
theorem rhsH_1 (i : S4096x1.Idx) (q : dot_S4096x1_S1x1_S4096x1_1_0_0_1_n_n.contr.Idx) :
    (dot_S4096x1_S1x1_S4096x1_1_0_0_1_n_n.rhsIdx i q 1).val = (i 1).val := by
  unfold DotDims.rhsIdx
  rw [dif_neg (show ¬(1 : Fin S1x1.rank) ∈ dot_S4096x1_S1x1_S4096x1_1_0_0_1_n_n.rhsBatch by decide), dif_pos (show (1 : Fin S1x1.rank) ∈ dot_S4096x1_S1x1_S4096x1_1_0_0_1_n_n.rhsNonContracting by decide)]
  rfl

/-- The dense product into the zero accumulator at row `p`: the sum over the thirteen dense features. -/
theorem dense_dot (x : FVec Ideal S4096x13 .f32) (w : FVec Ideal S13x1 .f32) (p : Fin 4096) :
    matmul dot_S4096x13_S13x1_S4096x1_1_0_0_1_n_n none x w (constant (F := Ideal) S4096x1 .f32 0x00000000#32) (ix2 p (0 : Fin 1))
      = ∑ k : Fin 13, x (ix2 p k) * w (ix2 k (0 : Fin 1)) := by
  simp only [matmul]
  rw [Ideal.matmul_constant_zero_apply, ← Equiv.sum_comp (contrEquiv1 dot_S4096x13_S13x1_S4096x1_1_0_0_1_n_n 13 rfl rfl).symm]
  refine Finset.sum_congr rfl fun k _ => ?_
  have hk := contrEquiv1_symm_val dot_S4096x13_S13x1_S4096x1_1_0_0_1_n_n 13 rfl rfl k
  have el : dot_S4096x13_S13x1_S4096x1_1_0_0_1_n_n.lhsIdx (ix2 p (0 : Fin 1)) ((contrEquiv1 dot_S4096x13_S13x1_S4096x1_1_0_0_1_n_n 13 rfl rfl).symm k) = ix2 p k := funext fun a => Fin.ext (by
    match a with
    | ⟨0, _⟩ => exact lhsD_0 _ _
    | ⟨1, _⟩ => exact (lhsD_1 _ _).trans hk)
  have er : dot_S4096x13_S13x1_S4096x1_1_0_0_1_n_n.rhsIdx (ix2 p (0 : Fin 1)) ((contrEquiv1 dot_S4096x13_S13x1_S4096x1_1_0_0_1_n_n 13 rfl rfl).symm k) = ix2 k (0 : Fin 1) := funext fun a => Fin.ext (by
    match a with
    | ⟨0, _⟩ => exact (rhsD_0 _ _).trans hk
    | ⟨1, _⟩ => exact rhsD_1 _ _)
  rw [el, er]

/-- A head's product into the zero accumulator at row `p`: its contraction has one term, the row's entry times
    the 1×1 weight. -/
theorem head_dot (z : FVec Ideal S4096x1 .f32) (W : FVec Ideal S1x1 .f32) (p : Fin 4096) :
    matmul dot_S4096x1_S1x1_S4096x1_1_0_0_1_n_n none z W (constant (F := Ideal) S4096x1 .f32 0x00000000#32) (ix2 p (0 : Fin 1))
      = z (ix2 p (0 : Fin 1)) * W (ix2 (0 : Fin 1) (0 : Fin 1)) := by
  simp only [matmul]
  rw [Ideal.matmul_constant_zero_apply, ← Equiv.sum_comp (contrEquiv1 dot_S4096x1_S1x1_S4096x1_1_0_0_1_n_n 1 rfl rfl).symm, Fin.sum_univ_one]
  have hk := contrEquiv1_symm_val dot_S4096x1_S1x1_S4096x1_1_0_0_1_n_n 1 rfl rfl (0 : Fin 1)
  have el : dot_S4096x1_S1x1_S4096x1_1_0_0_1_n_n.lhsIdx (ix2 p (0 : Fin 1)) ((contrEquiv1 dot_S4096x1_S1x1_S4096x1_1_0_0_1_n_n 1 rfl rfl).symm (0 : Fin 1)) = ix2 p (0 : Fin 1) := funext fun a => Fin.ext (by
    match a with
    | ⟨0, _⟩ => exact lhsH_0 _ _
    | ⟨1, _⟩ => exact (lhsH_1 _ _).trans hk)
  have er : dot_S4096x1_S1x1_S4096x1_1_0_0_1_n_n.rhsIdx (ix2 p (0 : Fin 1)) ((contrEquiv1 dot_S4096x1_S1x1_S4096x1_1_0_0_1_n_n 1 rfl rfl).symm (0 : Fin 1)) = ix2 (0 : Fin 1) (0 : Fin 1) := funext fun a => Fin.ext (by
    match a with
    | ⟨0, _⟩ => exact (rhsH_0 _ _).trans hk
    | ⟨1, _⟩ => exact rhsH_1 _ _)
  rw [el, er]

/-! ## The reductions over one axis, and the re-laid pieces -/

/-- The sum of a row's 26 one-dimensional sparse embeddings. -/
theorem lin_sum (x : FVec Ideal S4096x26x1 .f32) (hφ : FTy.f32 = FTy.f32 ∨ FTy.f32 = FTy.bf16) (hacc : (0x00000000#32 : BitVec 32) = 0x00000000#32) (p : Fin 4096) :
    multiReduction .add [1] S4096x1 x 0x00000000#32 reduces_S4096x26x1_S4096x1 hφ hacc (ix2 p (0 : Fin 1))
      = ∑ f : Fin 26, x (ix3 p f (0 : Fin 1)) := by
  refine (Ideal.multiReduction_add_single x 0x00000000#32 reduces_S4096x26x1_S4096x1 hφ hacc (ix2 p (0 : Fin 1))).trans ?_
  exact Finset.sum_congr rfl fun k _ => congrArg x (funext fun a => Fin.ext (by
    match a with | ⟨0, _⟩ => rfl | ⟨1, _⟩ => rfl | ⟨2, _⟩ => rfl))

/-- The sum over a row's 26 features of lane `q` of the sixteen-dimensional embeddings. -/
theorem emb_sum (x : FVec Ideal S4096x26x16 .f32) (hφ : FTy.f32 = FTy.f32 ∨ FTy.f32 = FTy.bf16) (hacc : (0x00000000#32 : BitVec 32) = 0x00000000#32) (p : Fin 4096) (q : Fin 16) :
    multiReduction .add [1] S4096x16 x 0x00000000#32 reduces_S4096x26x16_S4096x16 hφ hacc (ix2 p q)
      = ∑ f : Fin 26, x (ix3 p f q) := by
  refine (Ideal.multiReduction_add_single x 0x00000000#32 reduces_S4096x26x16_S4096x16 hφ hacc (ix2 p q)).trans ?_
  exact Finset.sum_congr rfl fun k _ => congrArg x (funext fun a => Fin.ext (by
    match a with | ⟨0, _⟩ => rfl | ⟨1, _⟩ => rfl | ⟨2, _⟩ => rfl))

/-- A [4096] vector laid out as a [4096, 1] column reads, at row `p`, the vector at `p`. -/
theorem column_of_vector (v : FVec Ideal S4096 .f32) (p : Fin 4096) :
    shapeCast S4096x1 v shapeCasts_S4096_S4096x1 (ix2 p (0 : Fin 1)) = v (ix1 p) :=
  shapeCast_apply v shapeCasts_S4096_S4096x1 _ _ (by
    rw [Shape.rowMajor_val_two, Shape.rowMajor_val_one]
    show p.val = p.val * 1 + 0
    omega)

/-- The sum over the sixteen lanes of a row, kept as a [4096, 1] column. -/
theorem lane_sum (y : FVec Ideal S4096x16 .f32) (hφ : FTy.f32 = FTy.f32 ∨ FTy.f32 = FTy.bf16) (hacc : (0x00000000#32 : BitVec 32) = 0x00000000#32) (p : Fin 4096) :
    shapeCast S4096x1 (multiReduction .add [1] S4096 y 0x00000000#32 reduces_S4096x16_S4096 hφ hacc) shapeCasts_S4096_S4096x1
        (ix2 p (0 : Fin 1))
      = ∑ q : Fin 16, y (ix2 p q) := by
  rw [column_of_vector]
  refine (Ideal.multiReduction_add_single y 0x00000000#32 reduces_S4096x16_S4096 hφ hacc (ix1 p)).trans ?_
  exact Finset.sum_congr rfl fun k _ => congrArg y (funext fun a => Fin.ext (by
    match a with | ⟨0, _⟩ => rfl | ⟨1, _⟩ => rfl))

/-- A one-element bias, cast to 1×1 and broadcast down the 4096 rows, reads the bias at every row. -/
theorem bias_col (b : FVec Ideal S1 .f32) (p : Fin 4096) :
    broadcastTo S4096x1 (shapeCast S1x1 b shapeCasts_S1_S1x1) broadcasts_S1x1_S4096x1 (ix2 p (0 : Fin 1)) = b (ix1 (0 : Fin 1)) := by
  rw [broadcastTo_apply (shapeCast S1x1 b shapeCasts_S1_S1x1) broadcasts_S1x1_S4096x1 (ix2 p (0 : Fin 1)) (ix2 (0 : Fin 1) (0 : Fin 1))
    (fun a => by match a with | ⟨0, _⟩ => rfl | ⟨1, _⟩ => rfl)]
  exact shapeCast_apply b shapeCasts_S1_S1x1 _ _ (by
    rw [Shape.rowMajor_val_two, Shape.rowMajor_val_one]; rfl)

/-! ## The logit column and the two output columns -/

/-- The logit column of the block at row `p` is the row's logit. -/
theorem logit_col (P0 : FVec Ideal S13x1 .f32) (P1 : FVec Ideal S1 .f32) (P4 : FVec Ideal S4096x13 .f32) (P5 : FVec Ideal S4096x26x1 .f32) (P6 : FVec Ideal S4096x26x16 .f32) (p : Fin 4096) :
    k0_pay2 (F := Ideal) P0 P1 P4 P5 P6 (ix2 p (0 : Fin 1)) = (logit (fun k => P4 (ix2 p k)) (fun k => P0 (ix2 k (0 : Fin 1))) (P1 (ix1 (0 : Fin 1))) (fun f => P5 (ix3 p f (0 : Fin 1))) (fun f q => P6 (ix3 p f q))) := by
  unfold k0_pay2 logit
  simp only [addf_apply, mulf_apply, broadcast_apply, shapeCast_self, dense_dot, bias_col]
  rw [lin_sum P5, lane_sum]
  refine congrArg₂ (· + ·) rfl (congrArg₂ (· * ·) rfl (Finset.sum_congr rfl fun q _ => ?_))
  simp only [subf_apply, mulf_apply]
  rw [emb_sum P6, emb_sum (mulf P6 P6)]
  rfl

/-- The first output column at row `p`. -/
theorem head0_col (P0 : FVec Ideal S13x1 .f32) (P1 : FVec Ideal S1 .f32) (P4 : FVec Ideal S4096x13 .f32) (P5 : FVec Ideal S4096x26x1 .f32) (P6 : FVec Ideal S4096x26x16 .f32) (P2 : FVec Ideal S1x1 .f32) (P3 : FVec Ideal S1 .f32) (p : Fin 4096) :
    k0_pay3 (F := Ideal) P0 P1 P2 P3 P4 P5 P6 (ix2 p (0 : Fin 1)) = head (logit (fun k => P4 (ix2 p k)) (fun k => P0 (ix2 k (0 : Fin 1))) (P1 (ix1 (0 : Fin 1))) (fun f => P5 (ix3 p f (0 : Fin 1))) (fun f q => P6 (ix3 p f q))) (P2 (ix2 (0 : Fin 1) (0 : Fin 1))) (P3 (ix1 (0 : Fin 1))) := by
  unfold k0_pay3 head
  show Ideal.logistic (matmul dot_S4096x1_S1x1_S4096x1_1_0_0_1_n_n none (k0_pay2 (F := Ideal) P0 P1 P4 P5 P6) P2 (constant (F := Ideal) S4096x1 .f32 0x00000000#32) (ix2 p (0 : Fin 1))
      + broadcastTo S4096x1 (shapeCast S1x1 P3 shapeCasts_S1_S1x1) broadcasts_S1x1_S4096x1 (ix2 p (0 : Fin 1))) = _
  rw [head_dot, bias_col, logit_col]

/-- The second output column at row `p`. -/
theorem head1_col (P0 : FVec Ideal S13x1 .f32) (P1 : FVec Ideal S1 .f32) (P4 : FVec Ideal S4096x13 .f32) (P5 : FVec Ideal S4096x26x1 .f32) (P6 : FVec Ideal S4096x26x16 .f32) (P7 : FVec Ideal S1x1 .f32) (P8 : FVec Ideal S1 .f32) (p : Fin 4096) :
    logistic (addf (k0_pay4 (F := Ideal) P0 P1 P7 P4 P5 P6) (broadcastTo S4096x1 (shapeCast S1x1 P8 shapeCasts_S1_S1x1) broadcasts_S1x1_S4096x1)) (ix2 p (0 : Fin 1))
      = head (logit (fun k => P4 (ix2 p k)) (fun k => P0 (ix2 k (0 : Fin 1))) (P1 (ix1 (0 : Fin 1))) (fun f => P5 (ix3 p f (0 : Fin 1))) (fun f q => P6 (ix3 p f q))) (P7 (ix2 (0 : Fin 1) (0 : Fin 1))) (P8 (ix1 (0 : Fin 1))) := by
  unfold k0_pay4 head
  show Ideal.logistic (matmul dot_S4096x1_S1x1_S4096x1_1_0_0_1_n_n none (k0_pay2 (F := Ideal) P0 P1 P4 P5 P6) P7 (constant (F := Ideal) S4096x1 .f32 0x00000000#32) (ix2 p (0 : Fin 1))
      + broadcastTo S4096x1 (shapeCast S1x1 P8 shapeCasts_S1_S1x1) broadcasts_S1x1_S4096x1 (ix2 p (0 : Fin 1))) = _
  rw [head_dot, bias_col, logit_col]

/-- What the body leaves in its output block at row `p`, column `j`: the first head in column 0, the second in column 1. -/
theorem block_entry (P0 : FVec Ideal S13x1 .f32) (P1 : FVec Ideal S1 .f32) (P4 : FVec Ideal S4096x13 .f32) (P5 : FVec Ideal S4096x26x1 .f32) (P6 : FVec Ideal S4096x26x16 .f32) (P2 : FVec Ideal S1x1 .f32) (P3 : FVec Ideal S1 .f32) (P7 : FVec Ideal S1x1 .f32) (P8 : FVec Ideal S1 .f32)
    (p : Fin 4096) (j : Fin 2) :
    Cert.KernelIdeal.Value.E9 (F := Ideal) P0 P1 P2 P3 P4 P5 P6 P7 P8 (ix2 p j)
      = if j.val = 0 then head (logit (fun k => P4 (ix2 p k)) (fun k => P0 (ix2 k (0 : Fin 1))) (P1 (ix1 (0 : Fin 1))) (fun f => P5 (ix3 p f (0 : Fin 1))) (fun f q => P6 (ix3 p f q))) (P2 (ix2 (0 : Fin 1) (0 : Fin 1))) (P3 (ix1 (0 : Fin 1)))
        else head (logit (fun k => P4 (ix2 p k)) (fun k => P0 (ix2 k (0 : Fin 1))) (P1 (ix1 (0 : Fin 1))) (fun f => P5 (ix3 p f (0 : Fin 1))) (fun f q => P6 (ix3 p f q))) (P7 (ix2 (0 : Fin 1) (0 : Fin 1))) (P8 (ix1 (0 : Fin 1))) := by
  rcases j with ⟨_ | _ | n, hj⟩
  · have hi : Cert.KernelIdeal.Value.ix9_0 (ix2 p (⟨0, hj⟩ : Fin 2)) = ix2 p (0 : Fin 1) := funext fun a => Fin.ext (by
      match a with | ⟨0, _⟩ => rfl | ⟨1, _⟩ => rfl)
    refine Eq.trans ?_ (if_pos rfl).symm
    show k0_pay3 (F := Ideal) P0 P1 P2 P3 P4 P5 P6 (Cert.KernelIdeal.Value.ix9_0 (ix2 p (⟨0, hj⟩ : Fin 2))) = _
    rw [hi]
    exact head0_col P0 P1 P4 P5 P6 P2 P3 p
  · have hi : Cert.KernelIdeal.Value.ix9_0 (ix2 p (⟨1, hj⟩ : Fin 2)) = ix2 p (0 : Fin 1) := funext fun a => Fin.ext (by
      match a with | ⟨0, _⟩ => rfl | ⟨1, _⟩ => rfl)
    refine Eq.trans ?_ (if_neg (Nat.succ_ne_zero 0)).symm
    show logistic (addf (k0_pay4 (F := Ideal) P0 P1 P7 P4 P5 P6) (broadcastTo S4096x1 (shapeCast S1x1 P8 shapeCasts_S1_S1x1) broadcasts_S1x1_S4096x1))
      (Cert.KernelIdeal.Value.ix9_0 (ix2 p (⟨1, hj⟩ : Fin 2))) = _
    rw [hi]
    exact head1_col P0 P1 P4 P5 P6 P7 P8 p
  · omega

/-! ## The whole output block from the whole input blocks -/

theorem zero_off1 : (![0] : Fin 1 → Nat) = fun _ => 0 := funext fun a => by fin_cases a <;> rfl
theorem zero_off2 : (![0, 0] : Fin 2 → Nat) = fun _ => 0 := funext fun a => by fin_cases a <;> rfl
theorem zero_off3 : (![0, 0, 0] : Fin 3 → Nat) = fun _ => 0 := funext fun a => by fin_cases a <;> rfl

/-- What the body stores at row `p`, column `j` of its output block, from its nine input blocks: every load is of a
    whole block, and the one store covers the output block. -/
theorem out_entry (x0 : FVec Ideal S4096x26x16 .f32) (x1 : FVec Ideal S4096x26x1 .f32) (x2 : FVec Ideal S4096x13 .f32)
    (x3 : FVec Ideal S13x1 .f32) (x4 : FVec Ideal S1 .f32) (x5 : FVec Ideal S1x1 .f32) (x6 : FVec Ideal S1 .f32)
    (x7 : FVec Ideal S1x1 .f32) (x8 : FVec Ideal S1 .f32) (p : Fin 4096) (j : Fin 2) :
    out0_9 (F := Ideal) x0 x1 x2 x3 x4 x5 x6 x7 x8 (ix2 p j)
      = if j.val = 0 then
          head (logit (fun k => x2 (ix2 p k)) (fun k => x3 (ix2 k (0 : Fin 1))) (x4 (ix1 (0 : Fin 1))) (fun f => x1 (ix3 p f (0 : Fin 1))) (fun f q => x0 (ix3 p f q)))
            (x5 (ix2 (0 : Fin 1) (0 : Fin 1))) (x6 (ix1 (0 : Fin 1)))
        else
          head (logit (fun k => x2 (ix2 p k)) (fun k => x3 (ix2 k (0 : Fin 1))) (x4 (ix1 (0 : Fin 1))) (fun f => x1 (ix3 p f (0 : Fin 1))) (fun f q => x0 (ix3 p f q)))
            (x7 (ix2 (0 : Fin 1) (0 : Fin 1))) (x8 (ix1 (0 : Fin 1))) := by
  unfold out0_9
  simp only [View.ld_unit_zero (S := S13x1) zero_off2, View.ld_unit_zero (S := S1) zero_off1, View.ld_unit_zero (S := S1x1) zero_off2,
    View.ld_unit_zero (S := S4096x13) zero_off2, View.ld_unit_zero (S := S4096x26x1) zero_off3, View.ld_unit_zero (S := S4096x26x16) zero_off3]
  rw [Cert.KernelIdeal.Value.canon9_eq]
  exact block_entry x3 x4 x2 x1 x0 x5 x6 x7 x8 p j

end Cert.KernelIdeal.Row

end
-- ==== Proof.KernelArray.lean ====
/-
  From blocks to the array: the kernel's [16384, 2] result is `FmRow.G` of the arrays its region finds.

  The grid has four points; point `t` works on rows 4096·t … 4096·t + 4095.  Its blocks of the gathered
  embeddings, of the gathered one-dimensional embeddings and of the dense features are those rows of their arrays;
  the six small operands (weights and biases) are fetched whole at every point.  So what point `t` writes back,
  read at row `p` of its block, is the row specification of array row 4096·t + p: block `t` of `G`.  The four
  output blocks tile the result, hence the result IS `G`.
-/
import proofs.«420257_j48043504173401_1_alg».proof.Proof.KernelRow

noncomputable section

namespace Cert.KernelIdeal.Arr

open Cert.KernelIdeal Cert.KernelIdeal.Gen Cert.KernelIdeal.Value Cert.KernelIdeal.Row
open Idealize.ShloMosaic Idealize.ShloMosaic.TcCoe Idealize.SL.Sem Idealize.ShloMosaic.ValueIdx Cert.FmRow
open Idealize.ShloMosaic.Pipeline (Dat)

variable (m : (ℓ : Loc nD τ sig) → Buf (Elt Ideal) ℓ) (ρ : Dev nD → PrngReg)

/-- The result as the row specification of the arrays the region finds: the two gathered arrays the host
    operations wrote, and the seven argument arrays the body reads. -/
abbrev GK (c : Dev nD) : S16384x2.Idx → EReal :=
  G (V m c main_arg1) (V m c main_arg2) (V m c main_arg3) (V m c main_v16) (V m c main_v31)
    (V m c main_arg6) (V m c main_arg7) (V m c main_arg8) (V m c main_arg9)

/-- The printed index maps over the four grid points: the three batched windows and the output move to block `t`
    along the batch axis, every other block index is zero. -/
theorem idx_facts : ∀ t : Fin cfg0.N,
    win0_9.index t (0 : Fin 2) = t.val ∧ win0_9.index t (1 : Fin 2) = 0
    ∧ win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-- Every block row of the result is some point's. -/
theorem idx_onto : ∀ q : Fin 4, ∃ t : Fin cfg0.N, win0_9.index t = ![q.val, 0] :=
  (by decide +kernel : ∀ q : Fin 4, ∃ t : Fin grid0.N, win0_9.index t = ![q.val, 0])

/-! ## Each input block read off its array -/

/-- The block of gathered embeddings at point `t` is rows 4096·t … of the gathered array. -/
theorem blk_emb (c : Dev nD) (t : Fin cfg0.N) (p : Fin 4096) (f : Fin 26) (q : Fin 16) (r : Fin 16384) (hr : r.val = t.val * 4096 + p.val) :
    iblk m c 0 t (ix3 p f q) = V m c main_v31 (ix3 r f q) := by
  obtain ⟨e90, e91, e00, e01, e02, e10, e11, e12, e20, e21, e30, e31, e40, e50, e51, e60, e70, e71, e80⟩ := idx_facts t
  show V m c main_v31 (((cfg0.win 0).blk t).view.emb (ix3 p f q)) = _
  refine congrArg (V m c main_v31) (funext fun a => Fin.ext ?_)
  match a with
  | ⟨0, _⟩ => show win0_0.index t (0 : Fin 3) * 4096 + 1 * p.val = r.val; omega
  | ⟨1, _⟩ => show win0_0.index t (1 : Fin 3) * 26 + 1 * f.val = f.val; omega
  | ⟨2, _⟩ => show win0_0.index t (2 : Fin 3) * 16 + 1 * q.val = q.val; omega

/-- The block of gathered one-dimensional embeddings at point `t`. -/
theorem blk_lin (c : Dev nD) (t : Fin cfg0.N) (p : Fin 4096) (f : Fin 26) (r : Fin 16384) (hr : r.val = t.val * 4096 + p.val) :
    iblk m c 1 t (ix3 p f (0 : Fin 1)) = V m c main_v16 (ix3 r f (0 : Fin 1)) := by
  obtain ⟨e90, e91, e00, e01, e02, e10, e11, e12, e20, e21, e30, e31, e40, e50, e51, e60, e70, e71, e80⟩ := idx_facts t
  show V m c main_v16 (((cfg0.win 1).blk t).view.emb (ix3 p f (0 : Fin 1))) = _
  refine congrArg (V m c main_v16) (funext fun a => Fin.ext ?_)
  match a with
  | ⟨0, _⟩ => show win0_1.index t (0 : Fin 3) * 4096 + 1 * p.val = r.val; omega
  | ⟨1, _⟩ => show win0_1.index t (1 : Fin 3) * 26 + 1 * f.val = f.val; omega
  | ⟨2, _⟩ => show win0_1.index t (2 : Fin 3) * 1 + 1 * 0 = 0; omega

/-- The block of dense features at point `t`. -/
theorem blk_dense (c : Dev nD) (t : Fin cfg0.N) (p : Fin 4096) (k : Fin 13) (r : Fin 16384) (hr : r.val = t.val * 4096 + p.val) :
    iblk m c 2 t (ix2 p k) = V m c main_arg1 (ix2 r k) := by
  obtain ⟨e90, e91, e00, e01, e02, e10, e11, e12, e20, e21, e30, e31, e40, e50, e51, e60, e70, e71, e80⟩ := idx_facts t
  show V m c main_arg1 (((cfg0.win 2).blk t).view.emb (ix2 p k)) = _
  refine congrArg (V m c main_arg1) (funext fun a => Fin.ext ?_)
  match a with
  | ⟨0, _⟩ => show win0_2.index t (0 : Fin 2) * 4096 + 1 * p.val = r.val; omega
  | ⟨1, _⟩ => show win0_2.index t (1 : Fin 2) * 13 + 1 * k.val = k.val; omega

/-- The dense weights are fetched whole. -/
theorem blk_ldw (c : Dev nD) (t : Fin cfg0.N) (k : Fin 13) :
    iblk m c 3 t (ix2 k (0 : Fin 1)) = V m c main_arg2 (ix2 k (0 : Fin 1)) := by
  obtain ⟨e90, e91, e00, e01, e02, e10, e11, e12, e20, e21, e30, e31, e40, e50, e51, e60, e70, e71, e80⟩ := idx_facts t
  show V m c main_arg2 (((cfg0.win 3).blk t).view.emb (ix2 k (0 : Fin 1))) = _
  refine congrArg (V m c main_arg2) (funext fun a => Fin.ext ?_)
  match a with
  | ⟨0, _⟩ => show win0_3.index t (0 : Fin 2) * 13 + 1 * k.val = k.val; omega
  | ⟨1, _⟩ => show win0_3.index t (1 : Fin 2) * 1 + 1 * 0 = 0; omega

/-- A one-element bias (windows 4, 6, 8) is fetched whole. -/
theorem blk_ldb (c : Dev nD) (t : Fin cfg0.N) :
    iblk m c 4 t (ix1 (0 : Fin 1)) = V m c main_arg3 (ix1 (0 : Fin 1)) := by
  obtain ⟨e90, e91, e00, e01, e02, e10, e11, e12, e20, e21, e30, e31, e40, e50, e51, e60, e70, e71, e80⟩ := idx_facts t
  show V m c main_arg3 (((cfg0.win 4).blk t).view.emb (ix1 (0 : Fin 1))) = _
  refine congrArg (V m c main_arg3) (funext fun a => Fin.ext ?_)
  match a with
  | ⟨0, _⟩ => show win0_4.index t (0 : Fin 1) * 1 + 1 * 0 = 0; omega
theorem blk_fb (c : Dev nD) (t : Fin cfg0.N) :
    iblk m c 6 t (ix1 (0 : Fin 1)) = V m c main_arg7 (ix1 (0 : Fin 1)) := by
  obtain ⟨e90, e91, e00, e01, e02, e10, e11, e12, e20, e21, e30, e31, e40, e50, e51, e60, e70, e71, e80⟩ := idx_facts t
  show V m c main_arg7 (((cfg0.win 6).blk t).view.emb (ix1 (0 : Fin 1))) = _
  refine congrArg (V m c main_arg7) (funext fun a => Fin.ext ?_)
  match a with
  | ⟨0, _⟩ => show win0_6.index t (0 : Fin 1) * 1 + 1 * 0 = 0; omega
theorem blk_lb (c : Dev nD) (t : Fin cfg0.N) :
    iblk m c 8 t (ix1 (0 : Fin 1)) = V m c main_arg9 (ix1 (0 : Fin 1)) := by
  obtain ⟨e90, e91, e00, e01, e02, e10, e11, e12, e20, e21, e30, e31, e40, e50, e51, e60, e70, e71, e80⟩ := idx_facts t
  show V m c main_arg9 (((cfg0.win 8).blk t).view.emb (ix1 (0 : Fin 1))) = _
  refine congrArg (V m c main_arg9) (funext fun a => Fin.ext ?_)
  match a with
  | ⟨0, _⟩ => show win0_8.index t (0 : Fin 1) * 1 + 1 * 0 = 0; omega

/-- A 1×1 head weight (windows 5, 7) is fetched whole. -/
theorem blk_fw (c : Dev nD) (t : Fin cfg0.N) :
    iblk m c 5 t (ix2 (0 : Fin 1) (0 : Fin 1)) = V m c main_arg6 (ix2 (0 : Fin 1) (0 : Fin 1)) := by
  obtain ⟨e90, e91, e00, e01, e02, e10, e11, e12, e20, e21, e30, e31, e40, e50, e51, e60, e70, e71, e80⟩ := idx_facts t
  show V m c main_arg6 (((cfg0.win 5).blk t).view.emb (ix2 (0 : Fin 1) (0 : Fin 1))) = _
  refine congrArg (V m c main_arg6) (funext fun a => Fin.ext ?_)
  match a with
  | ⟨0, _⟩ => show win0_5.index t (0 : Fin 2) * 1 + 1 * 0 = 0; omega
  | ⟨1, _⟩ => show win0_5.index t (1 : Fin 2) * 1 + 1 * 0 = 0; omega
theorem blk_lw (c : Dev nD) (t : Fin cfg0.N) :
    iblk m c 7 t (ix2 (0 : Fin 1) (0 : Fin 1)) = V m c main_arg8 (ix2 (0 : Fin 1) (0 : Fin 1)) := by
  obtain ⟨e90, e91, e00, e01, e02, e10, e11, e12, e20, e21, e30, e31, e40, e50, e51, e60, e70, e71, e80⟩ := idx_facts t
  show V m c main_arg8 (((cfg0.win 7).blk t).view.emb (ix2 (0 : Fin 1) (0 : Fin 1))) = _
  refine congrArg (V m c main_arg8) (funext fun a => Fin.ext ?_)
  match a with
  | ⟨0, _⟩ => show win0_7.index t (0 : Fin 2) * 1 + 1 * 0 = 0; omega
  | ⟨1, _⟩ => show win0_7.index t (1 : Fin 2) * 1 + 1 * 0 = 0; omega

/-! ## What a point writes back, the cover, and the array -/

/-- What point `t` writes back is block `t` of the row specification. -/
theorem flushed_eq (c : Dev nD) (t : Fin cfg0.N) :
    (dats m 0 c).flushed 9 t = ((cfg0.win 9).blk t).view.read (Elt Ideal) (GK m c) := by
  rw [flushed9]
  obtain ⟨e90, e91, e00, e01, e02, e10, e11, e12, e20, e21, e30, e31, e40, e50, e51, e60, e70, e71, e80⟩ := idx_facts t
  have ht : t.val < 4 := t.isLt
  funext y
  obtain ⟨p, j, rfl⟩ : ∃ (p : Fin 4096) (j : Fin 2), y = ix2 p j := ⟨y 0, y 1, eq_ix2 y⟩
  have hp : p.val < 4096 := p.isLt
  -- the array row under row `p` of block `t`
  obtain ⟨r, hr⟩ : ∃ r : Fin 16384, r.val = t.val * 4096 + p.val := ⟨⟨t.val * 4096 + p.val, by omega⟩, rfl⟩
  have hemb : ((cfg0.win 9).blk t).view.emb (ix2 p j) = ix2 r j := funext fun a => Fin.ext (by
    match a with
    | ⟨0, _⟩ => show win0_9.index t (0 : Fin 2) * 4096 + 1 * p.val = r.val; omega
    | ⟨1, _⟩ => show win0_9.index t (1 : Fin 2) * 2 + 1 * j.val = j.val; omega)
  show out0_9 (F := Ideal) (iblk m c 0 t) (iblk m c 1 t) (iblk m c 2 t) (iblk m c 3 t) (iblk m c 4 t) (iblk m c 5 t) (iblk m c 6 t) (iblk m c 7 t) (iblk m c 8 t) (ix2 p j)
    = GK m c (((cfg0.win 9).blk t).view.emb (ix2 p j))
  rw [hemb, out_entry]
  show _ = entry (V m c main_arg1) (V m c main_arg2) (V m c main_arg3) (V m c main_v16) (V m c main_v31)
    (V m c main_arg6) (V m c main_arg7) (V m c main_arg8) (V m c main_arg9) r j
  unfold entry
  simp only [blk_emb m c t _ _ _ r hr, blk_lin m c t _ _ r hr, blk_dense m c t _ _ r hr, blk_ldw m c t, blk_ldb m c t, blk_fb m c t, blk_lb m c t,
    blk_fw m c t, blk_lw m c t]

/-- An index of the result is in point `t`'s block iff each coordinate is in the block's range on its axis. -/
theorem mem_blk (t : Fin cfg0.N) (i : S16384x2.Idx) :
    i ∈ ((cfg0.win 9).blk t).view.set ↔ ∀ a : Fin 2, win0_9.index t a * S4096x2.size a ≤ (i a).val ∧ (i a).val < win0_9.index t a * S4096x2.size a + S4096x2.size a := by
  show i ∈ ((View.whole main_v32).slice (win0_9.rect t)).set ↔ _
  rw [View.set_slice_whole, Rect.mem_set_unit]
  exact Iff.rfl

/-- The four blocks cover the result: row `r` is in the block of point `r / 4096`. -/
theorem cover (i : S16384x2.Idx) : ∃ t : Fin cfg0.N, (cfg0.win 9).flush t = true ∧ i ∈ ((cfg0.win 9).blk t).view.set := by
  have hi0 : (i 0).val < 16384 := (i 0).isLt
  have hi1 : (i 1).val < 2 := (i 1).isLt
  obtain ⟨t, ht⟩ := idx_onto ⟨(i 0).val / 4096, by omega⟩
  have q0 : win0_9.index t (0 : Fin 2) = (i 0).val / 4096 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 4096 ≤ (i 0).val ∧ (i 0).val < win0_9.index t (0 : Fin 2) * 4096 + 4096; omega
  | ⟨1, _⟩ => show win0_9.index t (1 : Fin 2) * 2 ≤ (i 1).val ∧ (i 1).val < win0_9.index t (1 : Fin 2) * 2 + 2; omega

/-- The result array after the run is the row specification of the arrays the region finds. -/
theorem final (c : Dev nD) : (dats m 0 c).arrAt 9 cfg0.N = GK m c :=
  (dats m 0 c).arrAt_eq_of_cover 9 (GK m c) (fun t _ => flushed_eq m c t) cover

/-- The kernel's run with its result named: the row specification, and the arguments unchanged. -/
theorem run : θ_run defs (onTc (τ := τ) (main (F := Ideal))) ⟨m, fun _ => 0, ρ⟩ fun r => ∀ c : Dev nD,
      r.2.mem ((c : Thread nD τ).loc main_v32) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (run_blocks m ρ)

end Cert.KernelIdeal.Arr

end
-- ==== Proof.RefArray.lean ====
/-
  The reference's result is `FmRow.G` of its arguments and its two gathered arrays.

  The reference computes the same head on whole [16384, …] arrays with host operations: a `dot_general` for
  each matrix product (at an index, the sum over the contraction index), a `reduce` with `add` for each sum
  over one axis (at an index, its zero initial value plus the finite sum), broadcasts for the biases, and the
  logistic spelt out as 1 / (1 + exp (−x)) — which IS the logistic on the extended reals, infinities
  included, by definition.  Read one operation at a time at row `r`, the logit column is the row's logit and the
  two concatenated columns are its two heads.  The two gathers are left as they are: the kernel's program
  gathers by the very same host operations.
-/
import proofs.«420257_j48043504173401_1_alg».proof.Proof.Gen.ReferenceIdeal.Read
import proofs.«420257_j48043504173401_1_alg».proof.Proof.FmRow
import Idealize.ShloMosaic.Lib.IdealHost
import Idealize.ShloMosaic.Lib.Pipeline.Value

noncomputable section

namespace Cert.ReferenceIdeal.RowRead

open Cert.ReferenceIdeal Cert.ReferenceIdeal.Gen Cert.ReferenceIdeal.Read
open Idealize.ShloMosaic Idealize.ShloMosaic.ValueIdx Cert.FmRow

/-! ## Where each operation reads its operands, at row `r` -/

theorem dense_l (r : Fin 16384) (k : Fin 13) : lidx_main_v2 (ix2 r (0 : Fin 1)) k = ix2 r k := funext fun a => Fin.ext (by match a with | ⟨0, _⟩ => rfl | ⟨1, _⟩ => rfl)
theorem dense_r (r : Fin 16384) (k : Fin 13) : ridx_main_v2 (ix2 r (0 : Fin 1)) k = ix2 k (0 : Fin 1) := funext fun a => Fin.ext (by match a with | ⟨0, _⟩ => rfl | ⟨1, _⟩ => rfl)
theorem bias0 (r : Fin 16384) : idx_main_v3 (idx_main_v4 (ix2 r (0 : Fin 1))) = ix1 (0 : Fin 1) := funext fun a => Fin.ext (by match a with | ⟨0, _⟩ => rfl)
theorem lin_at (r : Fin 16384) (f : Fin 26) : idx_main_v21 (ix2 r (0 : Fin 1)) f = ix3 r f (0 : Fin 1) := funext fun a => Fin.ext (by match a with | ⟨0, _⟩ => rfl | ⟨1, _⟩ => rfl | ⟨2, _⟩ => rfl)
theorem col_at (r : Fin 16384) : idx_main_v44 (ix2 r (0 : Fin 1)) = ix1 r := funext fun a => Fin.ext (by match a with | ⟨0, _⟩ => rfl)
theorem lane_at (r : Fin 16384) (q : Fin 16) : idx_main_v43 (ix1 r) q = ix2 r q := funext fun a => Fin.ext (by match a with | ⟨0, _⟩ => rfl | ⟨1, _⟩ => rfl)
theorem emb_at (r : Fin 16384) (q : Fin 16) (f : Fin 26) : idx_main_v38 (ix2 r q) f = ix3 r f q := funext fun a => Fin.ext (by match a with | ⟨0, _⟩ => rfl | ⟨1, _⟩ => rfl | ⟨2, _⟩ => rfl)
theorem embsq_at (r : Fin 16384) (q : Fin 16) (f : Fin 26) : idx_main_v41 (ix2 r q) f = ix3 r f q := funext fun a => Fin.ext (by match a with | ⟨0, _⟩ => rfl | ⟨1, _⟩ => rfl | ⟨2, _⟩ => rfl)
theorem head0_l (r : Fin 16384) (k : Fin 1) : lidx_main_v48 (ix2 r (0 : Fin 1)) k = ix2 r k := funext fun a => Fin.ext (by match a with | ⟨0, _⟩ => rfl | ⟨1, _⟩ => rfl)
theorem head0_r (r : Fin 16384) (k : Fin 1) : ridx_main_v48 (ix2 r (0 : Fin 1)) k = ix2 k (0 : Fin 1) := funext fun a => Fin.ext (by match a with | ⟨0, _⟩ => rfl | ⟨1, _⟩ => rfl)
theorem bias1 (r : Fin 16384) : idx_main_v49 (idx_main_v50 (ix2 r (0 : Fin 1))) = ix1 (0 : Fin 1) := funext fun a => Fin.ext (by match a with | ⟨0, _⟩ => rfl)
theorem head1_l (r : Fin 16384) (k : Fin 1) : lidx_main_v58 (ix2 r (0 : Fin 1)) k = ix2 r k := funext fun a => Fin.ext (by match a with | ⟨0, _⟩ => rfl | ⟨1, _⟩ => rfl)
theorem head1_r (r : Fin 16384) (k : Fin 1) : ridx_main_v58 (ix2 r (0 : Fin 1)) k = ix2 k (0 : Fin 1) := funext fun a => Fin.ext (by match a with | ⟨0, _⟩ => rfl | ⟨1, _⟩ => rfl)
theorem bias2 (r : Fin 16384) : idx_main_v59 (idx_main_v60 (ix2 r (0 : Fin 1))) = ix1 (0 : Fin 1) := funext fun a => Fin.ext (by match a with | ⟨0, _⟩ => rfl)

/-! ## The logit column and the two heads -/

/-- The reference's logit column at row `r` is the row's logit. -/
theorem logit_row (x0 : (⟨S16384x26, .i32⟩ : BufTy).Contents (Elt Ideal)) (x1 : (⟨S16384x13, .f32⟩ : BufTy).Contents (Elt Ideal)) (x2 : (⟨S13x1, .f32⟩ : BufTy).Contents (Elt Ideal)) (x3 : (⟨S1, .f32⟩ : BufTy).Contents (Elt Ideal)) (x4 : (⟨S26x100000x1, .f32⟩ : BufTy).Contents (Elt Ideal)) (x5 : (⟨S26x100000x16, .f32⟩ : BufTy).Contents (Elt Ideal)) (r : Fin 16384) :
    val_main_v47 (F := Ideal) x0 x1 x2 x3 x4 x5 (ix2 r (0 : Fin 1)) = (logit (fun k => x1 (ix2 r k)) (fun k => x2 (ix2 k (0 : Fin 1))) (x3 (ix1 (0 : Fin 1))) (fun f => val_main_v20 (F := Ideal) x0 x4 (ix3 r f (0 : Fin 1))) (fun f q => val_main_v37 (F := Ideal) x0 x5 (ix3 r f q))) := by
  unfold logit
  simp only [val_main_v47_apply, val_main_v22_apply, val_main_v5_apply, val_main_v2_apply, val_main_v4_apply, val_main_v3_apply,
    val_main_v21_apply, val_main_cst_apply, val_main_v46_apply, val_main_v45_apply, val_main_cst_10_apply, val_main_v44_apply,
    val_main_v43_apply, val_main_cst_9_apply, val_main_v42_apply, val_main_v39_apply, val_main_v38_apply, val_main_cst_7_apply,
    val_main_v41_apply, val_main_cst_8_apply, val_main_v40_apply,
    dense_l, dense_r, bias0, lin_at, col_at, lane_at, emb_at, embsq_at,
    Ideal.addf_def, Ideal.mulf_def, Ideal.subf_def, Ideal.ofBits_def, Ideal.ofBits_zero_f32, zero_add]

/-- The first head at row `r`: the spelt-out 1 / (1 + exp (−x)) is the logistic. -/
theorem head0_row (x0 : (⟨S16384x26, .i32⟩ : BufTy).Contents (Elt Ideal)) (x1 : (⟨S16384x13, .f32⟩ : BufTy).Contents (Elt Ideal)) (x2 : (⟨S13x1, .f32⟩ : BufTy).Contents (Elt Ideal)) (x3 : (⟨S1, .f32⟩ : BufTy).Contents (Elt Ideal)) (x4 : (⟨S26x100000x1, .f32⟩ : BufTy).Contents (Elt Ideal)) (x5 : (⟨S26x100000x16, .f32⟩ : BufTy).Contents (Elt Ideal)) (x6 : (⟨S1x1, .f32⟩ : BufTy).Contents (Elt Ideal)) (x7 : (⟨S1, .f32⟩ : BufTy).Contents (Elt Ideal)) (r : Fin 16384) :
    val_main_v57 (F := Ideal) x0 x1 x2 x3 x4 x5 x6 x7 (ix2 r (0 : Fin 1))
      = head (logit (fun k => x1 (ix2 r k)) (fun k => x2 (ix2 k (0 : Fin 1))) (x3 (ix1 (0 : Fin 1))) (fun f => val_main_v20 (F := Ideal) x0 x4 (ix3 r f (0 : Fin 1))) (fun f q => val_main_v37 (F := Ideal) x0 x5 (ix3 r f q))) (x6 (ix2 (0 : Fin 1) (0 : Fin 1))) (x7 (ix1 (0 : Fin 1))) := by
  unfold head Ideal.logistic
  simp only [val_main_v57_apply, val_main_v56_apply, val_main_cst_12_apply, val_main_v55_apply, val_main_v54_apply, val_main_cst_11_apply,
    val_main_v53_apply, val_main_v52_apply, val_main_v51_apply, val_main_v48_apply, val_main_v50_apply, val_main_v49_apply,
    Fin.sum_univ_one, head0_l, head0_r, bias1, logit_row,
    Ideal.hostDivf_def, Ideal.hostUnary_exp_def, Ideal.hostNegf_def, Ideal.negf_def, Ideal.addf_def, Ideal.ofBits_def, Ideal.ofBits_one_f32]

/-- The second head at row `r`. -/
theorem head1_row (x0 : (⟨S16384x26, .i32⟩ : BufTy).Contents (Elt Ideal)) (x1 : (⟨S16384x13, .f32⟩ : BufTy).Contents (Elt Ideal)) (x2 : (⟨S13x1, .f32⟩ : BufTy).Contents (Elt Ideal)) (x3 : (⟨S1, .f32⟩ : BufTy).Contents (Elt Ideal)) (x4 : (⟨S26x100000x1, .f32⟩ : BufTy).Contents (Elt Ideal)) (x5 : (⟨S26x100000x16, .f32⟩ : BufTy).Contents (Elt Ideal)) (x8 : (⟨S1x1, .f32⟩ : BufTy).Contents (Elt Ideal)) (x9 : (⟨S1, .f32⟩ : BufTy).Contents (Elt Ideal)) (r : Fin 16384) :
    val_main_v67 (F := Ideal) x0 x1 x2 x3 x4 x5 x8 x9 (ix2 r (0 : Fin 1))
      = head (logit (fun k => x1 (ix2 r k)) (fun k => x2 (ix2 k (0 : Fin 1))) (x3 (ix1 (0 : Fin 1))) (fun f => val_main_v20 (F := Ideal) x0 x4 (ix3 r f (0 : Fin 1))) (fun f q => val_main_v37 (F := Ideal) x0 x5 (ix3 r f q))) (x8 (ix2 (0 : Fin 1) (0 : Fin 1))) (x9 (ix1 (0 : Fin 1))) := by
  unfold head Ideal.logistic
  simp only [val_main_v67_apply, val_main_v66_apply, val_main_cst_14_apply, val_main_v65_apply, val_main_v64_apply, val_main_cst_13_apply,
    val_main_v63_apply, val_main_v62_apply, val_main_v61_apply, val_main_v58_apply, val_main_v60_apply, val_main_v59_apply,
    Fin.sum_univ_one, head1_l, head1_r, bias2, logit_row,
    Ideal.hostDivf_def, Ideal.hostUnary_exp_def, Ideal.hostNegf_def, Ideal.negf_def, Ideal.addf_def, Ideal.ofBits_def, Ideal.ofBits_one_f32]

/-! ## The result -/

/-- The reference's result, the two heads side by side, is the row specification of its arguments and gathered arrays. -/
theorem result_eq (x0 : (⟨S16384x26, .i32⟩ : BufTy).Contents (Elt Ideal)) (x1 : (⟨S16384x13, .f32⟩ : BufTy).Contents (Elt Ideal)) (x2 : (⟨S13x1, .f32⟩ : BufTy).Contents (Elt Ideal)) (x3 : (⟨S1, .f32⟩ : BufTy).Contents (Elt Ideal)) (x4 : (⟨S26x100000x1, .f32⟩ : BufTy).Contents (Elt Ideal)) (x5 : (⟨S26x100000x16, .f32⟩ : BufTy).Contents (Elt Ideal)) (x6 : (⟨S1x1, .f32⟩ : BufTy).Contents (Elt Ideal)) (x7 : (⟨S1, .f32⟩ : BufTy).Contents (Elt Ideal)) (x8 : (⟨S1x1, .f32⟩ : BufTy).Contents (Elt Ideal)) (x9 : (⟨S1, .f32⟩ : BufTy).Contents (Elt Ideal)) :
    val_main_v68 (F := Ideal) x0 x1 x2 x3 x4 x5 x6 x7 x8 x9
      = G x1 x2 x3 (val_main_v20 (F := Ideal) x0 x4) (val_main_v37 (F := Ideal) x0 x5) x6 x7 x8 x9 := by
  funext i
  obtain ⟨r, j, rfl⟩ : ∃ (r : Fin 16384) (j : Fin 2), i = ix2 r j := ⟨i 0, i 1, eq_ix2 i⟩
  show _ = entry x1 x2 x3 (val_main_v20 (F := Ideal) x0 x4) (val_main_v37 (F := Ideal) x0 x5) x6 x7 x8 x9 r j
  unfold val_main_v68 entry
  rcases j with ⟨_ | _ | n, hj⟩
  · refine Eq.trans ?_ (if_pos rfl).symm
    rw [concatenate_pair_apply_left (t := S16384x2) (s₁ := S16384x1) (s₂ := S16384x1) (1 : Fin 2) _ _ concatenates_S16384x1_S16384x1_S16384x2_d1 (ix2 r (⟨0, hj⟩ : Fin 2)) rfl (ix2 r (0 : Fin 1))
      (fun b => by match b with | ⟨0, _⟩ => rfl | ⟨1, _⟩ => rfl)]
    exact head0_row x0 x1 x2 x3 x4 x5 x6 x7 r
  · refine Eq.trans ?_ (if_neg (Nat.succ_ne_zero 0)).symm
    rw [concatenate_pair_apply_right (t := S16384x2) (s₁ := S16384x1) (s₂ := S16384x1) (1 : Fin 2) _ _ concatenates_S16384x1_S16384x1_S16384x2_d1 (ix2 r (⟨1, hj⟩ : Fin 2)) rfl rfl (ix2 r (0 : Fin 1))
      (fun b hb => by match b with | ⟨0, _⟩ => rfl | ⟨1, _⟩ => exact absurd rfl hb) rfl]
    exact head1_row x0 x1 x2 x3 x4 x5 x8 x9 r
  · omega

end Cert.ReferenceIdeal.RowRead

end
-- ==== Proof.lean ====
/-
  The factorization-machine head, kernel against reference, over the extended reals.

  Both programs first gather, with the same host operations on the same arguments, one row of each of the
  26 embedding tables per batch row: a [16384, 26, 1] array of one-dimensional embeddings and a
  [16384, 26, 16] array of sixteen-dimensional ones.  From there every batch row r is independent:

    logit_r = (Σ_k dense_rk · w_k + b) + Σ_f lin_rf + ½ · Σ_q ( (Σ_f e_rfq)² − Σ_f e_rfq² ),
    out_r0 = logistic (logit_r · W₀ + B₀),    out_r1 = logistic (logit_r · W₁ + B₁).

  The kernel computes this for 4096 rows per grid point, with matrix products into a zero accumulator, lane
  reductions and the logistic as one operation; the reference computes it on whole arrays, with `dot_general`,
  `reduce` and the logistic spelt 1 / (1 + exp (−x)).  On the extended reals a matrix product is the finite sum
  over its contraction index, a reduction the finite sum over its axis, and the spelt-out quotient is the
  logistic by definition, so both results are the one function `FmRow.G` of the same arrays, index by index:
  no algebraic law beyond reading each operation at an index is needed, and the finiteness of the inputs is never
  used.  The idealization rewrote nothing, so the `preserves` conjunct is trivial; the two kernel frames are the
  generated ones and the reference's frame is its run with the result dropped.
-/
import proofs.«420257_j48043504173401_1_alg».proof.Defs
import proofs.«420257_j48043504173401_1_alg».proof.Proof.Gen.Kernel
import proofs.«420257_j48043504173401_1_alg».proof.Proof.Gen.Kernel.Skeleton
import proofs.«420257_j48043504173401_1_alg».proof.Proof.Gen.Kernel.Launch
import proofs.«420257_j48043504173401_1_alg».proof.Proof.Gen.Kernel.Points
import proofs.«420257_j48043504173401_1_alg».proof.Proof.Gen.Kernel.Frame
import proofs.«420257_j48043504173401_1_alg».proof.Proof.Gen.KernelIdeal
import proofs.«420257_j48043504173401_1_alg».proof.Proof.Gen.KernelIdeal.Skeleton
import proofs.«420257_j48043504173401_1_alg».proof.Proof.Gen.KernelIdeal.Launch
import proofs.«420257_j48043504173401_1_alg».proof.Proof.Gen.KernelIdeal.Points
import proofs.«420257_j48043504173401_1_alg».proof.Proof.Gen.KernelIdeal.Frame
import proofs.«420257_j48043504173401_1_alg».proof.Proof.Gen.ReferenceIdeal
import proofs.«420257_j48043504173401_1_alg».proof.Proof.Gen.Pre_finite_inputs
import proofs.«420257_j48043504173401_1_alg».proof.Proof.KernelArray
import proofs.«420257_j48043504173401_1_alg».proof.Proof.RefArray
import Idealize.ShloMosaic.Lib.StableHlo.Run
import Idealize.ShloMosaic.Adequacy
import Idealize.ShloMosaic.Init

noncomputable section

namespace Cert.Proof

open Idealize.ShloMosaic Idealize.SL.Sem Idealize.ShloMosaic.StableHlo Cert.FmRow

/-! ## The gathered arrays are the same in both programs -/

section Gathered

variable (m : (ℓ : Loc Cert.KernelIdeal.nD Cert.KernelIdeal.τ Cert.KernelIdeal.sig) → Buf (Elt Ideal) ℓ)

set_option maxRecDepth 8192 in
set_option maxHeartbeats 8000000 in
/-- The one-dimensional embeddings the kernel's region finds gathered are the reference's gather of the same
    indices and table: the two programs spell the index arithmetic and the gather with the same operations. -/
theorem gathered_lin (c : Dev Cert.KernelIdeal.nD) :
    (Cert.KernelIdeal.Gen.V m c Cert.KernelIdeal.main_v16 : Cert.KernelIdeal.S16384x26x1.Idx → EReal)
      = Cert.ReferenceIdeal.Read.val_main_v20 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) := by
  dsimp only [Cert.KernelIdeal.Gen.V, Cert.KernelIdeal.Gen.hostOps0]
  after_results_simp <;> rfl

set_option maxRecDepth 8192 in
set_option maxHeartbeats 8000000 in
/-- The same for the sixteen-dimensional embeddings. -/
theorem gathered_emb (c : Dev Cert.KernelIdeal.nD) :
    (Cert.KernelIdeal.Gen.V m c Cert.KernelIdeal.main_v31 : Cert.KernelIdeal.S16384x26x16.Idx → EReal)
      = Cert.ReferenceIdeal.Read.val_main_v37 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg5)) := by
  dsimp only [Cert.KernelIdeal.Gen.V, Cert.KernelIdeal.Gen.hostOps0]
  after_results_simp <;> rfl

end Gathered

/-! ## The claims -/

/-- Both runs end with the result at `FmRow.G` of the same arrays: the kernel's by its blocks, the reference's by
    its operations read at an index, the gathered arrays and the arguments agreeing. -/
theorem algebraic : Cert.algebraic_KernelIdeal_ReferenceIdeal := by
  intro m ρ m' ρ' _ hagree
  refine ⟨fun c => Cert.KernelIdeal.Arr.GK m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v68_eq, Cert.ReferenceIdeal.RowRead.result_eq, h0, h1, h2, h3, h4, h5, h6, h7, h8, h9]
  show _ = G (Cert.KernelIdeal.Gen.V m c Cert.KernelIdeal.main_arg1) (Cert.KernelIdeal.Gen.V m c Cert.KernelIdeal.main_arg2) (Cert.KernelIdeal.Gen.V m c Cert.KernelIdeal.main_arg3)
    (Cert.KernelIdeal.Gen.V m c Cert.KernelIdeal.main_v16) (Cert.KernelIdeal.Gen.V m c Cert.KernelIdeal.main_v31)
    (Cert.KernelIdeal.Gen.V m c Cert.KernelIdeal.main_arg6) (Cert.KernelIdeal.Gen.V m c Cert.KernelIdeal.main_arg7) (Cert.KernelIdeal.Gen.V m c Cert.KernelIdeal.main_arg8) (Cert.KernelIdeal.Gen.V m c Cert.KernelIdeal.main_arg9)
  rw [Cert.KernelIdeal.Gen.V_main_arg1 m c, Cert.KernelIdeal.Gen.V_main_arg2 m c, Cert.KernelIdeal.Gen.V_main_arg3 m c, Cert.KernelIdeal.Gen.V_main_arg6 m c,
    Cert.KernelIdeal.Gen.V_main_arg7 m c, Cert.KernelIdeal.Gen.V_main_arg8 m c, Cert.KernelIdeal.Gen.V_main_arg9 m c, gathered_lin m c, gathered_emb m c]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
